-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x2048x1024 .f32) (main_arg1 : FVec F S1024x1024 .f32) (main_arg2 : FVec F S1024x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x2048x1024 : Shape := ⟨3, ![16, 2048, 1024]⟩
abbrev S1024x1024 : Shape := ⟨2, ![1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024x1024, .f32⟩
  | .hbm, ⟨3, _⟩ => ⟨S1024x1024, .bf16⟩
  | .hbm, ⟨4, _⟩ => ⟨S1024x1024, .bf16⟩
  | .hbm, ⟨5, _⟩ => ⟨S16x2048x1024, .bf16⟩
  | .hbm, ⟨6, _⟩ => ⟨S16x2048x1024, .bf16⟩
  | .hbm, ⟨7, _⟩ => ⟨S16x2048x1024, .bf16⟩
  | .hbm, ⟨8, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x2048x1024, .f32⟩
  | .local _ .vmem, ⟨15, _⟩ => ⟨S1x2048x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x2048_S256 : S256x2048.Reduces [1] S256
  shapeCasts_S256_S256x1 : S256.ShapeCasts S256x1
  broadcasts_S256x1_S256x2048 : S256x1.Broadcasts S256x2048
  dot_S512x1024_S1024x1024_S512x1024_1_1_0_0_n_n_wf : DotDims.WF S512x1024 S1024x1024 S512x1024 [1] [1] [0] [0] [] []
  dot_S256x1024_S2048x1024_S256x2048_1_1_0_0_n_n_wf : DotDims.WF S256x1024 S2048x1024 S256x2048 [1] [1] [0] [0] [] []
  dot_S256x2048_S256x1024_S2048x1024_0_0_1_1_n_n_wf : DotDims.WF S256x2048 S256x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x2048x1024.size a
  hwx0_3 : ∀ i : grid0.Coords, EltTy.bits .bf16 = 32 ∨ (Rect.block (s := S16x2048x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x2048x1024.size a
  hwx0_4 : ∀ i : grid0.Coords, EltTy.bits .bf16 = 32 ∨ (Rect.block (s := S16x2048x1024) S1x512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S16x2048x1024.size a
  hwx1_0 : ∀ i : grid1.Coords, EltTy.bits .bf16 = 32 ∨ (Rect.block (s := S16x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S16x2048x1024.size a
  hwx1_2 : ∀ i : grid1.Coords, EltTy.bits .bf16 = 32 ∨ (Rect.block (s := S16x2048x1024) S1x256x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S16x2048x1024.size a
  hwx1_3 : ∀ i : grid1.Coords, EltTy.bits .f32 = 32 ∨ (Rect.block (s := S16x2048x1024) S1x2048x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S256x1024_S2048x1024_0_0_1_1_n_n : DotDims S256x2048 S256x1024 S2048x1024 where
  lhsContracting := [0]
  rhsContracting := [0]
  lhsNonContracting := [1]
  rhsNonContracting := [1]
  lhsBatch := []
  rhsBatch := []
  wf := dot_S256x2048_S256x1024_S2048x1024_0_0_1_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3_1) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S16x2048x2048 : Shape := ⟨3, ![16, 2048, 2048]⟩
abbrev S_ : Shape := ⟨0, ![]⟩
abbrev S16x2048 : Shape := ⟨2, ![16, 2048]⟩
abbrev S16x1x2048 : Shape := ⟨3, ![16, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x1024, .f32⟩
  | .hbm, ⟨2, _⟩ => ⟨S1024x1024, .f32⟩
  | .hbm, ⟨3, _⟩ => ⟨S16x2048x1024, .f32⟩
  | .hbm, ⟨4, _⟩ => ⟨S16x2048x1024, .f32⟩
  | .hbm, ⟨5, _⟩ => ⟨S16x2048x2048, .f32⟩
  | .hbm, ⟨6, _⟩ => ⟨S_, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x1x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Spec.lean ====
/-
  The mathematics both programs compute, stated once over the extended reals with no program in sight.

  For a batch `n`, key rows `K (n, l, ·)`, query rows `Q (n, m, ·)` and value rows `X (n, m, ·)`:
    score n l m  = Σ_a K(n,l,a) · Q(n,m,a)
    the column maximum over the key position l (started from -∞, and met once more with -∞),
    ex n l m     = exp (score n l m - colMax n m)
    attn n l m   = ex n l m / Σ_l' ex n l' m              (a softmax along l, for each fixed m)
    out n l c    = Σ_m attn n l m · X(n,m,c).
  The keys and queries are themselves projections of `x`: `projArr x W (n,l,a) = Σ_c x(n,l,c) · W(a,c)`.
  The whole result is `G x Wq Wk = out (projArr x Wk) (projArr x Wq) x`.

  Also here: a sum over 2048 positions is the sum over 8 tiles of 256 (the order in which one of the two programs
  accumulates it), valid in any commutative monoid, so on the extended reals with no finiteness needed.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.AttnSpec

open Idealize.ShloMosaic Idealize.ShloMosaic.ValueIdx

/-- [16, 2048, 1024]: batches, positions, channels (or projected features). -/
abbrev SX : Shape := ⟨3, ![16, 2048, 1024]⟩
/-- [1024, 1024]: a projection's weights, features by channels. -/
abbrev SW : Shape := ⟨2, ![1024, 1024]⟩

/-- The float word of -∞ both programs start their maximum from. -/
abbrev negInf : EReal := Ideal.ofBits .f32 0xFF800000#32

/-- A projection of every row of `x` by the rows of `W`: entry (n, l, a) is Σ_c x(n,l,c) · W(a,c). -/
def projArr (x : SX.Idx → EReal) (W : SW.Idx → EReal) : SX.Idx → EReal :=
  fun i => ∑ c : Fin 1024, x (ix3 (i 0) (i 1) c) * W (ix2 (i 2) c)

section
variable (K Q X : SX.Idx → EReal)

/-- The score of key position `l` against query position `m` in batch `n`. -/
def score (n : Fin 16) (l m : Fin 2048) : EReal := ∑ a : Fin 1024, K (ix3 n l a) * Q (ix3 n m a)

/-- The largest score of query position `m` over all key positions, from -∞ (and met with -∞ once more). -/
def colMax (n : Fin 16) (m : Fin 2048) : EReal :=
  max negInf ((Finset.univ : Finset (Fin 2048)).fold max negInf (fun l => score K Q n l m))

/-- The shifted exponential. -/
def ex (n : Fin 16) (l m : Fin 2048) : EReal := Ideal.exp (score K Q n l m - colMax K Q n m)

/-- The normaliser of query position `m`: the sum over the key positions. -/
def colSum (n : Fin 16) (m : Fin 2048) : EReal := ∑ l : Fin 2048, ex K Q n l m

/-- The softmax along the key position, for each fixed query position. -/
def attn (n : Fin 16) (l m : Fin 2048) : EReal := Ideal.div (ex K Q n l m) (colSum K Q n m)

/-- The re-weighted rows. -/
def out (n : Fin 16) (l : Fin 2048) (c : Fin 1024) : EReal := ∑ m : Fin 2048, attn K Q n l m * X (ix3 n m c)

/-- The re-weighted rows as an array. -/
def outArr : SX.Idx → EReal := fun i => out K Q X (i 0) (i 1) (i 2)
end

/-- The whole function of the three inputs. -/
def G (x : SX.Idx → EReal) (Wq Wk : SW.Idx → EReal) : SX.Idx → EReal :=
  outArr (projArr x Wk) (projArr x Wq) x

/-- Position `256 j + r` of tile `j`. -/
abbrev tilePos (j : Fin 8) (r : Fin 256) : Fin 2048 := ⟨256 * j.val + r.val, by have := j.isLt; have := r.isLt; omega⟩

/-- A sum over the 2048 positions is the sum over the 8 tiles of the sums over each tile's 256 positions. -/
theorem sum_tiles {M : Type*} [AddCommMonoid M] (f : Fin 2048 → M) :
    ∑ m : Fin 2048, f m = ∑ j : Fin 8, ∑ r : Fin 256, f (tilePos j r) := by
  rw [← Fintype.sum_prod_type (f := fun p : Fin 8 × Fin 256 => f (tilePos p.1 p.2))]
  refine (Equiv.sum_comp (finProdFinEquiv (m := 8) (n := 256)) f).symm.trans ?_
  refine Finset.sum_congr rfl fun p _ => congrArg f (Fin.ext ?_)
  show p.2.val + 256 * p.1.val = 256 * p.1.val + p.2.val
  omega

/-- A sum over `Fin 8` as the sum over `range 8` of a function of naturals that agrees with it below 8. -/
theorem sum_fin8_eq_range {M : Type*} [AddCommMonoid M] (g : ℕ → M) :
    ∑ j : Fin 8, g j.val = ∑ s ∈ Finset.range 8, g s := (Finset.sum_range g).symm

end Cert.AttnSpec

end
-- ==== Proof.RefValue.lean ====
/-
  The reference program read at an entry. Its eighteen host operations are: the two projections of `x`, the scores
  `Σ_a key(n,l,a) · query(n,m,a)`, the maximum over the key position l from -∞ (met once more with -∞), the shifted
  exponential, the sum over l from zero, the quotient, and the last product `Σ_m attn(n,l,m) · x(n,m,c)`.
  Each is read by its own index lemma; the maximum, a fold over an axis, is read here by hand as the fold of `max`
  over that axis's coordinates. Together they are the specification's `G`.
-/
import proofs.«106263_j64072322121728_1_alg».proof.Proof.Spec
import proofs.«106263_j64072322121728_1_alg».proof.Proof.Gen.ReferenceIdeal.Read
import Idealize.ShloMosaic.Lib.ValueIdx
import Idealize.ShloMosaic.PureOps.Ideal.Laws

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read Cert.AttnSpec

section
variable (x0 : (⟨S16x2048x1024, .f32⟩ : BufTy).Contents (Elt Ideal))
  (x1 x2 : (⟨S1024x1024, .f32⟩ : BufTy).Contents (Elt Ideal))

/-- The key projection: entry (n, l, a) is Σ_c x(n,l,c) · Wk(a,c). -/
theorem key_eq (i : S16x2048x1024.Idx) :
    val_main_v0 (F := Ideal) x0 x2 i = projArr x0 x2 i := by
  rw [val_main_v0_apply]
  unfold projArr
  refine Finset.sum_congr rfl fun k _ => ?_
  have el : lidx_main_v0 i k = ix3 (i 0) (i 1) k := funext fun b => Fin.ext (by match b with | ⟨0, _⟩ => rfl | ⟨1, _⟩ => rfl | ⟨2, _⟩ => rfl)
  have er : ridx_main_v0 i k = ix2 (i 2) k := funext fun b => Fin.ext (by match b with | ⟨0, _⟩ => rfl | ⟨1, _⟩ => rfl)
  rw [el, er]
  rfl

/-- The query projection: entry (n, m, a) is Σ_c x(n,m,c) · Wq(a,c). -/
theorem query_eq (i : S16x2048x1024.Idx) :
    val_main_v1 (F := Ideal) x0 x1 i = projArr x0 x1 i := by
  rw [val_main_v1_apply]
  unfold projArr
  refine Finset.sum_congr rfl fun k _ => ?_
  have el : lidx_main_v1 i k = ix3 (i 0) (i 1) k := funext fun b => Fin.ext (by match b with | ⟨0, _⟩ => rfl | ⟨1, _⟩ => rfl | ⟨2, _⟩ => rfl)
  have er : ridx_main_v1 i k = ix2 (i 2) k := funext fun b => Fin.ext (by match b with | ⟨0, _⟩ => rfl | ⟨1, _⟩ => rfl)
  rw [el, er]
  rfl

/-- The scores: entry (n, l, m) is Σ_a key(n,l,a) · query(n,m,a). -/
theorem score_eq (n : Fin 16) (l m : Fin 2048) :
    val_main_v2 (F := Ideal) x0 x1 x2 (ix3 n l m) = score (projArr x0 x2) (projArr x0 x1) n l m := by
  rw [val_main_v2_apply]
  unfold score
  refine Finset.sum_congr rfl fun a _ => ?_
  have el : lidx_main_v2 (ix3 n l m) a = ix3 n l a := funext fun b => Fin.ext (by match b with | ⟨0, _⟩ => rfl | ⟨1, _⟩ => rfl | ⟨2, _⟩ => rfl)
  have er : ridx_main_v2 (ix3 n l m) a = ix3 n m a := funext fun b => Fin.ext (by match b with | ⟨0, _⟩ => rfl | ⟨1, _⟩ => rfl | ⟨2, _⟩ => rfl)
  rw [el, er, key_eq, query_eq]

/-- The maximum over the key position: at (n, m) it is the fold of `max` from -∞ over l of the score at (n, l, m). -/
theorem max_fold (n : Fin 16) (m : Fin 2048) :
    val_main_v3 (F := Ideal) x0 x1 x2 (ix2 n m)
      = (Finset.univ : Finset (Fin 2048)).fold max negInf
          (fun l : Fin 2048 => val_main_v2 (F := Ideal) x0 x1 x2 (ix3 n l m)) := by
  unfold val_main_v3
  rw [Host.reduce_eq_fold_single FloatOps.maximumf _ _ reducesTo_S16x2048x2048_S16x2048_d1
    (by decide : S16x2048x2048.Reduces [1] S16x2048) h_S_ _]
  refine Finset.fold_congr fun l _ => ?_
  exact congrArg (val_main_v2 (F := Ideal) x0 x1 x2) (funext fun b => Fin.ext (by match b with | ⟨0, _⟩ => rfl | ⟨1, _⟩ => rfl | ⟨2, _⟩ => rfl))

/-- The column maximum: the fold met once more with -∞. -/
theorem colMax_eq (n : Fin 16) (m : Fin 2048) :
    val_main_v5 (F := Ideal) x0 x1 x2 (ix2 n m) = colMax (projArr x0 x2) (projArr x0 x1) n m := by
  rw [val_main_v5_apply, val_main_v4_apply, val_main_cst_0_apply, max_fold]
  unfold colMax
  simp only [score_eq]
  rfl

/-- The shifted exponential. -/
theorem ex_eq (n : Fin 16) (l m : Fin 2048) :
    val_main_v9 (F := Ideal) x0 x1 x2 (ix3 n l m) = ex (projArr x0 x2) (projArr x0 x1) n l m := by
  rw [val_main_v9_apply, val_main_v8_apply, val_main_v7_apply, val_main_v6_apply]
  have e : idx_main_v6 (idx_main_v7 (ix3 n l m)) = ix2 n m := funext fun b => Fin.ext (by match b with | ⟨0, _⟩ => rfl | ⟨1, _⟩ => rfl)
  rw [e, colMax_eq, score_eq]
  rfl

/-- The normaliser: the sum over the key position from zero. -/
theorem colSum_eq (n : Fin 16) (m : Fin 2048) :
    val_main_v10 (F := Ideal) x0 x1 x2 (ix2 n m) = colSum (projArr x0 x2) (projArr x0 x1) n m := by
  rw [val_main_v10_apply, val_main_cst_1_apply, Ideal.ofBits_def, Ideal.ofBits_zero_f32, zero_add]
  unfold colSum
  refine Finset.sum_congr rfl fun l _ => ?_
  have e : idx_main_v10 (ix2 n m) l = ix3 n l m := funext fun b => Fin.ext (by match b with | ⟨0, _⟩ => rfl | ⟨1, _⟩ => rfl | ⟨2, _⟩ => rfl)
  rw [e, ex_eq]

/-- The quotient. -/
theorem attn_eq (n : Fin 16) (l m : Fin 2048) :
    val_main_v13 (F := Ideal) x0 x1 x2 (ix3 n l m) = attn (projArr x0 x2) (projArr x0 x1) n l m := by
  rw [val_main_v13_apply, val_main_v12_apply, val_main_v11_apply]
  have e : idx_main_v11 (idx_main_v12 (ix3 n l m)) = ix2 n m := funext fun b => Fin.ext (by match b with | ⟨0, _⟩ => rfl | ⟨1, _⟩ => rfl)
  rw [e, colSum_eq, ex_eq]
  rfl

end

/-- The reference's result, as a function of its three arguments (`x`, then the query weights, then the key weights),
    is the specification's function. -/
theorem result_eq (x0 : (⟨S16x2048x1024, .f32⟩ : BufTy).Contents (Elt Ideal))
    (x1 x2 : (⟨S1024x1024, .f32⟩ : BufTy).Contents (Elt Ideal)) :
    (val_main_v14 (F := Ideal) x0 x1 x2 : SX.Idx → EReal) = G x0 x1 x2 := by
  funext i
  obtain ⟨n, l, c, rfl⟩ : ∃ n l c, i = ix3 n l c := ⟨i 0, i 1, i 2, eq_ix3 i⟩
  show val_main_v14 (F := Ideal) x0 x1 x2 (ix3 n l c) = out (projArr x0 x2) (projArr x0 x1) x0 n l c
  rw [val_main_v14_apply]
  unfold out
  refine Finset.sum_congr rfl fun m _ => ?_
  have el : lidx_main_v14 (ix3 n l c) m = ix3 n l m := funext fun b => Fin.ext (by match b with | ⟨0, _⟩ => rfl | ⟨1, _⟩ => rfl | ⟨2, _⟩ => rfl)
  have er : ridx_main_v14 (ix3 n l c) m = ix3 n m c := funext fun b => Fin.ext (by match b with | ⟨0, _⟩ => rfl | ⟨1, _⟩ => rfl | ⟨2, _⟩ => rfl)
  rw [el, er, attn_eq]

end Cert.ReferenceIdeal.RefValue

end
-- ==== Proof.KeyQuery.lean ====
/-
  The first kernel region: every row block of `x` (512 rows of one batch) is multiplied against the two weight
  matrices, contracting the channel axis of both factors, and the two products are written to the key and the query
  arrays, block by block. Read at an entry, each array is the projection `Σ_c x(n,l,c) · W(a,c)`: the changes of
  float format are the identity on the extended reals, and a product into the zero accumulator is the plain sum.
-/
import proofs.«106263_j64072322121728_1_alg».proof.Proof.Spec
import proofs.«106263_j64072322121728_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.KeyQuery

open Cert.KernelIdeal Cert.KernelIdeal.Gen Cert.AttnSpec

/-- On the product's left factor, axis 0 is the output's row. -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- On the left factor, axis 1 is the contracted channel. -/
theorem lhs_chan (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- On the right factor, axis 0 is the output's column. -/
theorem rhs_col (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- On the right factor, axis 1 is the contracted channel. -/
theorem rhs_chan (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The row block with its unit axis dropped and its format narrowed, at (r, cc), is the block at (0, r, cc). -/
theorem pay1_apply (x0 : Vec Ideal S1x512x1024 .f32) (r : Fin 512) (cc : Fin 1024) :
    k0_pay1 x0 (ix2 r cc) = x0 (ix3 0 r cc) := by
  unfold k0_pay1
  rw [truncf_apply, shapeCast_dropUnit_apply]
  congr 1
  funext a
  match a with
  | ⟨0, _⟩ => rfl
  | ⟨1, _⟩ => rfl
  | ⟨2, _⟩ => rfl

/-- A [512, 1024] block given a leading unit axis, at (0, r, a), is the block at (r, a). -/
theorem addUnit_apply {α : Type} (v : S512x1024.Idx → α) (h : S512x1024.ShapeCasts S1x512x1024) (r : Fin 512) (a : Fin 1024) :
    shapeCast S1x512x1024 v h (ix3 0 r a) = v (ix2 r a) := by
  rw [shapeCast_addUnit_apply]
  congr 1
  funext ax
  match ax with
  | ⟨0, _⟩ => rfl
  | ⟨1, _⟩ => rfl

/-- The product of a row block with a weight matrix over the channel axis of both, into the zero accumulator. -/
theorem matmul_apply (X : FVec Ideal S512x1024 .bf16) (w : FVec Ideal S1024x1024 .bf16) (r : Fin 512) (a : Fin 1024) :
    matmul dot_S512x1024_S1024x1024_S512x1024_1_1_0_0_n_n none X w (constant (F := Ideal) S512x1024 .f32 0x00000000#32) (ix2 r a)
      = ∑ cc : Fin 1024, X (ix2 r cc) * w (ix2 a cc) := by
  show FloatOps.matmul dot_S512x1024_S1024x1024_S512x1024_1_1_0_0_n_n none X w (constant (F := Ideal) S512x1024 .f32 0x00000000#32) (ix2 r a) = _
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r a) ((contrEquiv1 dot_S512x1024_S1024x1024_S512x1024_1_1_0_0_n_n 1024 rfl rfl).symm k) = ix2 r k := funext fun ax => Fin.ext (by
    match ax with
    | ⟨0, _⟩ => exact lhs_row _ _
    | ⟨1, _⟩ => exact (lhs_chan _ _).trans hk)
  have er : dot_S512x1024_S1024x1024_S512x1024_1_1_0_0_n_n.rhsIdx (ix2 r a) ((contrEquiv1 dot_S512x1024_S1024x1024_S512x1024_1_1_0_0_n_n 1024 rfl rfl).symm k) = ix2 a k := funext fun ax => Fin.ext (by
    match ax with
    | ⟨0, _⟩ => exact rhs_col _ _
    | ⟨1, _⟩ => exact (rhs_chan _ _).trans hk)
  rw [el, er]

/-- The first product's payload at (0, r, a): the sum over the channels of the block's row r against the weights' row a. -/
theorem pay2_apply (x0 : Vec Ideal S1x512x1024 .f32) (w : Vec Ideal S1024x1024 .bf16) (r : Fin 512) (a : Fin 1024) :
    k0_pay2 x0 w (ix3 0 r a) = ∑ cc : Fin 1024, x0 (ix3 0 r cc) * w (ix2 a cc) := by
  unfold k0_pay2
  rw [addUnit_apply, truncf_apply, shapeCast_self, matmul_apply]
  refine Finset.sum_congr rfl fun cc _ => ?_
  rw [pay1_apply]

/-- The second product's payload, likewise. -/
theorem pay3_apply (x0 : Vec Ideal S1x512x1024 .f32) (w : Vec Ideal S1024x1024 .bf16) (r : Fin 512) (a : Fin 1024) :
    k0_pay3 x0 w (ix3 0 r a) = ∑ cc : Fin 1024, x0 (ix3 0 r cc) * w (ix2 a cc) := by
  unfold k0_pay3
  rw [addUnit_apply, truncf_apply, shapeCast_self, matmul_apply]
  refine Finset.sum_congr rfl fun cc _ => ?_
  rw [pay1_apply]

variable (V : (c : Dev nD) → (b : Ref sig .tc) → Buf (Elt Ideal) ((c : Thread nD τ).loc b))

/-- The zero offset on three axes. -/
theorem hz3 : (![0, 0, 0] : Fin 3 → Nat) = fun _ => 0 := funext fun a => by fin_cases a <;> rfl
/-- The zero offset on two axes. -/
theorem hz2 : (![0, 0] : Fin 2 → Nat) = fun _ => 0 := funext fun a => by fin_cases a <;> rfl

/-- One entry of a point's product is the projection's entry, once the point's row block and weight block are the
    arrays' entries the projection reads there. -/
theorem pay2_proj (x : SX.Idx → EReal) (W : SW.Idx → EReal) (x0 : Vec Ideal S1x512x1024 .f32) (w : Vec Ideal S1024x1024 .bf16)
    (j : S1x512x1024.Idx) (i : SX.Idx)
    (hx : ∀ cc : Fin 1024, x0 (ix3 0 (j 1) cc) = x (ix3 (i 0) (i 1) cc))
    (hw : ∀ cc : Fin 1024, w (ix2 (j 2) cc) = W (ix2 (i 2) cc)) :
    k0_pay2 x0 w j = projArr x W i := by
  obtain ⟨p, r, a, rfl⟩ : ∃ (p : Fin 1) (r : Fin 512) (a : Fin 1024), j = ix3 p r a := ⟨j 0, j 1, j 2, eq_ix3 j⟩
  obtain rfl : p = 0 := Subsingleton.elim _ _
  rw [pay2_apply]
  unfold projArr
  exact Finset.sum_congr rfl fun cc _ => by rw [hx cc, hw cc]

/-- The same for the second product. -/
theorem pay3_proj (x : SX.Idx → EReal) (W : SW.Idx → EReal) (x0 : Vec Ideal S1x512x1024 .f32) (w : Vec Ideal S1024x1024 .bf16)
    (j : S1x512x1024.Idx) (i : SX.Idx)
    (hx : ∀ cc : Fin 1024, x0 (ix3 0 (j 1) cc) = x (ix3 (i 0) (i 1) cc))
    (hw : ∀ cc : Fin 1024, w (ix2 (j 2) cc) = W (ix2 (i 2) cc)) :
    k0_pay3 x0 w j = projArr x W i := by
  obtain ⟨p, r, a, rfl⟩ : ∃ (p : Fin 1) (r : Fin 512) (a : Fin 1024), j = ix3 p r a := ⟨j 0, j 1, j 2, eq_ix3 j⟩
  obtain rfl : p = 0 := Subsingleton.elim _ _
  rw [pay3_apply]
  unfold projArr
  exact Finset.sum_congr rfl fun cc _ => by rw [hx cc, hw cc]

/-- The index maps over the grid: the row-block window and the two output windows sit at the same block, whose
    last coordinate is 0; the weight windows are the whole arrays. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 :=
  (by decide +kernel : ∀ t : Fin grid0.N, _)

/-- What a point writes back to the key array is its block of the projection by the first weight array: the point's
    row block is the rows of `x` at the same block, and its weight block is the whole weight array. -/
theorem flushed3_eq (c : Dev nD) (t : Fin cfg0.N) :
    (dat0 (F := Ideal) V c).flushed 3 t = ((cfg0.win 3).blk t).view.read (Elt Ideal) (projArr (V c main_arg0) (V c main_v0)) := by
  show (cfg0.win 3).cut (grid0.coords t) ((dat0 V c).after 3 t) = _
  rw [after0_3]
  unfold out0_3
  rw [View.canon_unit_zero hz3]
  simp only [View.ld_unit_zero (S := S1x512x1024) hz3, View.ld_unit_zero (S := S1024x1024) hz2]
  funext j
  show k0_pay2 (iblk0 V c 0 t) (iblk0 V c 1 t) j = projArr (V c main_arg0) (V c main_v0) (((cfg0.win 3).blk t).view.emb j)
  obtain ⟨e00, e01, e02, e32, e40, e41, e42, e10, e11, e20, e21, q0, q1⟩ := idx_facts t
  refine pay2_proj _ _ _ _ j _ (fun cc => ?_) (fun cc => ?_)
  · show V c main_arg0 (((cfg0.win 0).blk t).view.emb (ix3 0 (j 1) cc)) = V c main_arg0 _
    refine congrArg _ ?_
    funext a; apply Fin.ext
    match a with
    | ⟨0, _⟩ => show win0_0.index t (0 : Fin 3) * 1 + 1 * 0 = win0_3.index t (0 : Fin 3) * 1 + 1 * (j 0).val; have hj : (j 0).val < 1 := (j 0).isLt; omega
    | ⟨1, _⟩ => show win0_0.index t (1 : Fin 3) * 512 + 1 * (j 1).val = win0_3.index t (1 : Fin 3) * 512 + 1 * (j 1).val; omega
    | ⟨2, _⟩ => show win0_0.index t (2 : Fin 3) * 1024 + 1 * cc.val = cc.val; omega
  · show V c main_v0 (((cfg0.win 1).blk t).view.emb (ix2 (j 2) cc)) = V c main_v0 _
    refine congrArg _ ?_
    funext a; apply Fin.ext
    match a with
    | ⟨0, _⟩ => show win0_1.index t (0 : Fin 2) * 1024 + 1 * (j 2).val = win0_3.index t (2 : Fin 3) * 1024 + 1 * (j 2).val; omega
    | ⟨1, _⟩ => show win0_1.index t (1 : Fin 2) * 1024 + 1 * cc.val = cc.val; omega

/-- What a point writes back to the query array is its block of the projection by the second weight array. -/
theorem flushed4_eq (c : Dev nD) (t : Fin cfg0.N) :
    (dat0 (F := Ideal) V c).flushed 4 t = ((cfg0.win 4).blk t).view.read (Elt Ideal) (projArr (V c main_arg0) (V c main_v1)) := by
  show (cfg0.win 4).cut (grid0.coords t) ((dat0 V c).after 4 t) = _
  rw [after0_4]
  unfold out0_4
  rw [View.canon_unit_zero hz3]
  simp only [View.ld_unit_zero (S := S1x512x1024) hz3, View.ld_unit_zero (S := S1024x1024) hz2]
  funext j
  show k0_pay3 (iblk0 V c 0 t) (iblk0 V c 2 t) j = projArr (V c main_arg0) (V c main_v1) (((cfg0.win 4).blk t).view.emb j)
  obtain ⟨e00, e01, e02, e32, e40, e41, e42, e10, e11, e20, e21, q0, q1⟩ := idx_facts t
  refine pay3_proj _ _ _ _ j _ (fun cc => ?_) (fun cc => ?_)
  · show V c main_arg0 (((cfg0.win 0).blk t).view.emb (ix3 0 (j 1) cc)) = V c main_arg0 _
    refine congrArg _ ?_
    funext a; apply Fin.ext
    match a with
    | ⟨0, _⟩ => show win0_0.index t (0 : Fin 3) * 1 + 1 * 0 = win0_4.index t (0 : Fin 3) * 1 + 1 * (j 0).val; have hj : (j 0).val < 1 := (j 0).isLt; omega
    | ⟨1, _⟩ => show win0_0.index t (1 : Fin 3) * 512 + 1 * (j 1).val = win0_4.index t (1 : Fin 3) * 512 + 1 * (j 1).val; omega
    | ⟨2, _⟩ => show win0_0.index t (2 : Fin 3) * 1024 + 1 * cc.val = cc.val; omega
  · show V c main_v1 (((cfg0.win 2).blk t).view.emb (ix2 (j 2) cc)) = V c main_v1 _
    refine congrArg _ ?_
    funext a; apply Fin.ext
    match a with
    | ⟨0, _⟩ => show win0_2.index t (0 : Fin 2) * 1024 + 1 * (j 2).val = win0_4.index t (2 : Fin 3) * 1024 + 1 * (j 2).val; omega
    | ⟨1, _⟩ => show win0_2.index t (1 : Fin 2) * 1024 + 1 * cc.val = cc.val; omega

/-- An index of the key array is in point t's block iff each coordinate is in the block's range on its axis. -/
theorem mem_blk3 (t : Fin cfg0.N) (i : SX.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v3_0).slice (win0_3.rect t)).set ↔ _
  rw [View.set_slice_whole, Rect.mem_set_unit]
  exact Iff.rfl

/-- The same for the query array. -/
theorem mem_blk4 (t : Fin cfg0.N) (i : SX.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v3_1).slice (win0_4.rect t)).set ↔ _
  rw [View.set_slice_whole, Rect.mem_set_unit]
  exact Iff.rfl

/-- The point whose block holds position l of batch n: batch n's l / 512 -th. -/
theorem point_of (i : SX.Idx) : ∃ t : Fin cfg0.N, t.val = 4 * (i 0).val + (i 1).val / 512 := by
  have h0 : (i 0).val < 16 := (i 0).isLt
  have h1 : (i 1).val < 2048 := (i 1).isLt
  exact ⟨⟨4 * (i 0).val + (i 1).val / 512, by show _ < 64; omega⟩, rfl⟩

/-- Every index of the key array is in the block of a point that writes back. -/
theorem cover3 (i : SX.Idx) : ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 1024 := (i 2).isLt
  obtain ⟨t, ht⟩ := point_of i
  obtain ⟨e00, e01, e02, e32, e40, e41, e42, e10, e11, e20, e21, q0, q1⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- Every index of the query array is in the block of a point that writes back. -/
theorem cover4 (i : SX.Idx) : ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 1024 := (i 2).isLt
  obtain ⟨t, ht⟩ := point_of i
  obtain ⟨e00, e01, e02, e32, e40, e41, e42, e10, e11, e20, e21, q0, q1⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- After the region the key array (the region's output window 3) holds the projection of `x` (window 0's array)
    by the first weight array (window 1's). -/
theorem key_arr (c : Dev nD) :
    ((dat0 (F := Ideal) V c).arrAt 3 cfg0.N : SX.Idx → EReal) = projArr (V c main_arg0) (V c main_v0) :=
  (dat0 V c).arrAt_eq_of_cover 3 (projArr (V c main_arg0) (V c main_v0)) (fun t _ => flushed3_eq V c t) cover3

/-- After the region the query array (output window 4) holds the projection of `x` by the second weight array
    (window 2's). -/
theorem query_arr (c : Dev nD) :
    ((dat0 (F := Ideal) V c).arrAt 4 cfg0.N : SX.Idx → EReal) = projArr (V c main_arg0) (V c main_v1) :=
  (dat0 V c).arrAt_eq_of_cover 4 (projArr (V c main_arg0) (V c main_v1)) (fun t _ => flushed4_eq V c t) cover4

end Cert.KernelIdeal.KeyQuery

end
-- ==== Proof.LibKeepdims.lean ====
/-
  General lemmas for kernels that keep a reduced axis as a column (`sum(..., keepdims=True)`) and for moving a
  finite factor through a finite sum of extended reals.

  · `mul_sum_of_nonneg_of_ne_top`: on the extended reals `a · Σ f = Σ a · f` for a factor `0 ≤ a < ⊤`, with no condition
    on the terms (they may hold both infinities: scaling by a nonnegative real keeps each term's sign and infinity,
    and by zero the law is `0 = 0`).
  · `shapeCast_column`: an `[a]` vector viewed as the column `[a, 1]`, read at an entry.
  · `broadcastTo_column`: a column `[a, 1]` laid across `b` columns to `[a, b]`, read at an entry.
  · `rowSum`: the f32 lane sum of an `[n, w]` value over its second axis from the zero word, read at a row, as a
    sum over `Fin w`.
  Indices are built with `ValueIdx.ix1` / `ix2`, so every coordinate has a literal `Fin` type.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibKeepdims

open Idealize.ShloMosaic Idealize.ShloMosaic.ValueIdx

/-- A finite nonnegative extended real moves inside a finite sum of extended reals, whatever the terms are. -/
theorem mul_sum_of_nonneg_of_ne_top {ι : Type*} {a : EReal} (ha : 0 ≤ a) (ha' : a ≠ ⊤) (s : Finset ι) (f : ι → EReal) :
    a * ∑ k ∈ s, f k = ∑ k ∈ s, a * f k := by
  classical
  induction s using Finset.induction_on with
  | empty => simp
  | insert b s hb ih =>
    rw [Finset.sum_insert hb, Finset.sum_insert hb, EReal.left_distrib_of_nonneg_of_ne_top ha ha', ih]

/-- An `[a]` vector cast to the column `[a, 1]` reads, at `(i, u)`, the vector at `i`. -/
theorem shapeCast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry `p`. -/
theorem broadcastTo_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 lane sum of an `[n, w]` value over its second axis, from the zero word, at row `p`: the sum of that row's
    `w` entries. (Apply it in term mode — `refine (rowSum …).trans ?_`, `congrArg` — against a printed payload: the
    printed proof arguments are spelt differently from a lemma's, which `rw` and `simp` do not see through.) -/
theorem rowSum {n w : ℕ} (v : FVec Ideal (⟨2, ![n, w]⟩ : Shape) .f32) (h : Shape.Reduces (⟨2, ![n, w]⟩ : Shape) [1] (⟨1, ![n]⟩ : Shape))
    (hφ : FKind.Formats .f32) (hacc : (0x00000000#32 : BitVec 32) = FKind.add.neutral .f32 hφ) (p : Fin n) :
    multiReduction .add [1] (⟨1, ![n]⟩ : Shape) v 0x00000000#32 h hφ hacc (ix1 p) = ∑ d : Fin w, v (ix2 p d) := by
  refine (Ideal.multiReduction_add_single v _ h hφ hacc (ix1 p)).trans ?_
  exact Finset.sum_congr rfl fun d _ => congrArg v (funext fun a => Fin.ext (by match a with | ⟨0, _⟩ => rfl | ⟨1, _⟩ => rfl))

end Cert.LibKeepdims

end
-- ==== Proof.LibRowDot.lean ====
/-
  The product of ROWS BY ROWS read at an entry on the extended reals: an [m, k] factor against an [n, k] factor, both
  contracted along their second axis (the product of A with the transpose of B, as a linear layer spells it with its
  weight stored [out, in]). Into a zero accumulator, entry (a, b) is the sum over c of A(a, c) · B(b, c).
-/
import Idealize.ShloMosaic.Lib.ValueIdx
import Idealize.ShloMosaic.PureOps.Ideal.Laws

noncomputable section

open scoped BigOperators

namespace Cert.RowDot

open Idealize.ShloMosaic Idealize.ShloMosaic.ValueIdx

/-- The dimension numbers of the product of rows by rows: both factors contracted along axis 1. -/
abbrev rowDot (m n k : Nat) (wf : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ where
  lhsContracting := [1]
  rhsContracting := [1]
  lhsNonContracting := [0]
  rhsNonContracting := [0]
  lhsBatch := []
  rhsBatch := []
  wf := wf

/-- Rows by rows, into the zero accumulator: entry (a, b) is the sum over c of A(a, c) · B(b, c). -/
theorem matmul_rowDot_apply {m n k : Nat} {φ₁ φ₂ : FTy}
    (wf : DotDims.WF ⟨2, ![m, k]⟩ ⟨2, ![n, k]⟩ ⟨2, ![m, n]⟩ [1] [1] [0] [0] [] []) (prec : Option ContractPrecision)
    (A : FVec Ideal ⟨2, ![m, k]⟩ φ₁) (B : FVec Ideal ⟨2, ![n, k]⟩ φ₂) (a : Fin m) (b : Fin n) :
    matmul (rowDot m n k wf) prec A B (constant ⟨2, ![m, n]⟩ .f32 0x00000000#32) (ix2 a b)
      = ∑ c : Fin k, A (ix2 a c) * B (ix2 b c) := by
  show FloatOps.matmul (rowDot m n k wf) prec A B (constant ⟨2, ![m, n]⟩ .f32 0x00000000#32) (ix2 a b) = _
  rw [Ideal.matmul_constant_zero_apply, ← Equiv.sum_comp (contrEquiv1 (rowDot m n k wf) k rfl rfl).symm]
  refine Finset.sum_congr rfl fun c _ => ?_
  have c2 := contrEquiv1_symm_val (rowDot m n k wf) k rfl rfl c
  have l2 : (rowDot m n k wf).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowDot m n k wf).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowDot

end
-- ==== Proof.LibColDot.lean ====
/-
  The product of COLUMNS BY COLUMNS read at an entry on the extended reals: a [k, m] factor against a [k, n] factor,
  both contracted along their FIRST axis (the product of the transpose of A with B). Into a zero accumulator, entry
  (a, b) is the sum over c of A(c, a) · B(c, b).
-/
import Idealize.ShloMosaic.Lib.ValueIdx
import Idealize.ShloMosaic.PureOps.Ideal.Laws

noncomputable section

open scoped BigOperators

namespace Cert.ColDot

open Idealize.ShloMosaic Idealize.ShloMosaic.ValueIdx

/-- The dimension numbers of the product of columns by columns: both factors contracted along axis 0. -/
abbrev colDot (k m n : Nat) (wf : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ where
  lhsContracting := [0]
  rhsContracting := [0]
  lhsNonContracting := [1]
  rhsNonContracting := [1]
  lhsBatch := []
  rhsBatch := []
  wf := wf

/-- Columns by columns, into the zero accumulator: entry (a, b) is the sum over c of A(c, a) · B(c, b). -/
theorem matmul_colDot_apply {k m n : Nat} {φ₁ φ₂ : FTy}
    (wf : DotDims.WF ⟨2, ![k, m]⟩ ⟨2, ![k, n]⟩ ⟨2, ![m, n]⟩ [0] [0] [1] [1] [] []) (prec : Option ContractPrecision)
    (A : FVec Ideal ⟨2, ![k, m]⟩ φ₁) (B : FVec Ideal ⟨2, ![k, n]⟩ φ₂) (a : Fin m) (b : Fin n) :
    matmul (colDot k m n wf) prec A B (constant ⟨2, ![m, n]⟩ .f32 0x00000000#32) (ix2 a b)
      = ∑ c : Fin k, A (ix2 c a) * B (ix2 c b) := by
  show FloatOps.matmul (colDot k m n wf) prec A B (constant ⟨2, ![m, n]⟩ .f32 0x00000000#32) (ix2 a b) = _
  rw [Ideal.matmul_constant_zero_apply, ← Equiv.sum_comp (contrEquiv1 (colDot k m n wf) k rfl rfl).symm]
  refine Finset.sum_congr rfl fun c _ => ?_
  have c2 := contrEquiv1_symm_val (colDot k m n wf) k rfl rfl c
  have l2 : (colDot k m n wf).lhsIdx (ix2 a b) ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (colDot k m n wf).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.ColDot

end
-- ==== Proof.AttnTile.lean ====
/-
  One tile of the second kernel region, read at an entry. A tile holds 256 query rows `q`, all 2048 key rows `k` of
  its batch and the 256 value rows `xv` at the query rows' positions. The body computes the scores of every query row
  against every key row, each query row's maximum over the key rows, the shifted exponentials, their sum along the key
  rows, the quotient (a softmax along the key rows for each query row), and adds `Σ_r attn(r,l) · xv(r,c)` to entry
  (l, c) of the output block. First: what each control case of the body leaves in the output's staging buffer is the
  one update's payload, over the zero block at a batch's first tile and over the running contents afterwards.
-/
import proofs.«106263_j64072322121728_1_alg».proof.Proof.Spec
import proofs.«106263_j64072322121728_1_alg».proof.Proof.LibKeepdims
import proofs.«106263_j64072322121728_1_alg».proof.Proof.LibRowDot
import proofs.«106263_j64072322121728_1_alg».proof.Proof.LibColDot
import proofs.«106263_j64072322121728_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.AttnTile

open Cert.KernelIdeal Cert.KernelIdeal.Gen Cert.AttnSpec

theorem hz3 : (![0, 0, 0] : Fin 3 → Nat) = fun _ => 0 := funext fun a => by fin_cases a <;> rfl

section Pieces
variable {F : FTy → Type} [FloatOps F]

/-- A later tile of a batch: over the output block's running contents `xo`, the body leaves the one covering store's
    payload, the tile's contribution added to `xo`. -/
theorem piece_later (c : Dev nD) (i : grid1.Coords) (a2 : Memref sig .tc .vmem S1x256x1024 .bf16) (h2 : a2.IsWhole)
    (a3 : Memref sig .tc .vmem S1x2048x1024 .bf16) (h3 : a3.IsWhole) (a4 : Memref sig .tc .vmem S1x256x1024 .bf16) (h4 : a4.IsWhole)
    (a5 : Memref sig .tc .vmem S1x2048x1024 .f32) (h5 : a5.IsWhole) (hc : ¬cond1_0 i)
    (x0 : Vec F S1x256x1024 .bf16) (x1 : Vec F S1x2048x1024 .bf16) (x2 : Vec F S1x256x1024 .bf16) (xo : Vec F S1x2048x1024 .f32) :
    out1_B_3 c i a2 h2 a3 h3 a4 h4 a5 h5 hc x0 x1 x2 xo = k1_pay2 x0 x1 x2 xo := by
  unfold out1_B_3
  rw [View.read_writes_eq_canon _ _ _ (cover1_B_3 c i a2 h2 a3 h3 a4 h4 a5 h5 hc x0 x1 x2 xo)]
  unfold kernelRun1_B
  dsimp only
  rw [View.canon_unit_zero hz3]
  simp only [View.readAt_eq_ld, h2.read_unread, h3.read_unread, h4.read_unread, h5.read_unread,
    View.ld_unit_zero (S := S1x256x1024) hz3, View.ld_unit_zero (S := S1x2048x1024) hz3]

/-- The first tile of a batch: the body stores the zero block, reads it back, and leaves the tile's contribution added
    to zero. -/
theorem piece_first (c : Dev nD) (i : grid1.Coords) (a2 : Memref sig .tc .vmem S1x256x1024 .bf16) (h2 : a2.IsWhole)
    (a3 : Memref sig .tc .vmem S1x2048x1024 .bf16) (h3 : a3.IsWhole) (a4 : Memref sig .tc .vmem S1x256x1024 .bf16) (h4 : a4.IsWhole)
    (a5 : Memref sig .tc .vmem S1x2048x1024 .f32) (h5 : a5.IsWhole) (hc : cond1_0 i)
    (x0 : Vec F S1x256x1024 .bf16) (x1 : Vec F S1x2048x1024 .bf16) (x2 : Vec F S1x256x1024 .bf16) :
    out1_A_3 c i a2 h2 a3 h3 a4 h4 a5 h5 hc x0 x1 x2 = k1_pay2 x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x2048x1024) hz3, View.readCov_unit_zero (S := S1x2048x1024) _ hz3]
  simp only [View.readAt_eq_ld, h2.read_unread, h3.read_unread, h4.read_unread,
    View.ld_unit_zero (S := S1x256x1024) hz3, View.ld_unit_zero (S := S1x2048x1024) hz3]

end Pieces

/-! ## One tile's arithmetic, read at an entry -/

section Tile
variable (q : Vec Ideal S1x256x1024 .bf16) (k : Vec Ideal S1x2048x1024 .bf16) (xv : Vec Ideal S1x256x1024 .bf16)

/-- The score of key row `l` against the tile's query row `r`. -/
def tScore (r : Fin 256) (l : Fin 2048) : EReal := ∑ a : Fin 1024, k (ix3 0 l a) * q (ix3 0 r a)
/-- The tile's query row `r`: its largest score over the key rows, from -∞ and met with -∞ once more. -/
def tMax (r : Fin 256) : EReal := max negInf ((Finset.univ : Finset (Fin 2048)).fold max negInf (fun l => tScore q k r l))
/-- The shifted exponential. -/
def tEx (r : Fin 256) (l : Fin 2048) : EReal := Ideal.exp (tScore q k r l - tMax q k r)
/-- The row's normaliser. -/
def tSum (r : Fin 256) : EReal := ∑ l : Fin 2048, tEx q k r l
/-- The softmax of the tile's query row `r` along the key rows. -/
def tAttn (r : Fin 256) (l : Fin 2048) : EReal := Ideal.div (tEx q k r l) (tSum q k r)
/-- The tile's contribution to output entry (l, c). -/
def tContrib (l : Fin 2048) (cc : Fin 1024) : EReal := ∑ r : Fin 256, tAttn q k r l * xv (ix3 0 r cc)

/-- The scores as the body computes them: the query rows against the key rows, contracted along the feature axis. -/
def bScores : FVec Ideal S256x2048 .f32 :=
  matmul dot_S256x1024_S2048x1024_S256x2048_1_1_0_0_n_n none
    (shapeCast S256x1024 q shapeCasts_S1x256x1024_S256x1024 : FVec Ideal S256x1024 .bf16)
    (shapeCast S2048x1024 k shapeCasts_S1x2048x1024_S2048x1024 : FVec Ideal S2048x1024 .bf16)
    (constant S256x2048 .f32 0x00000000#32)

theorem bScores_apply (r : Fin 256) (l : Fin 2048) : bScores q k (ix2 r l) = tScore q k r l := by
  unfold bScores tScore
  refine (Cert.RowDot.matmul_rowDot_apply dot_S256x1024_S2048x1024_S256x2048_1_1_0_0_n_n_wf none _ _ r l).trans ?_
  refine Finset.sum_congr rfl fun a _ => ?_
  rw [shapeCast_1ab_ab_apply, shapeCast_1ab_ab_apply, mul_comm]

/-- Each query row's largest score, as the body computes it: the lane maximum from -∞, met with -∞ once more. -/
def bMax : FVec Ideal S256 .f32 :=
  maximumf (broadcast S256 (Scalar.ofBits (F := Ideal) .f32 0xFF800000#32))
    (multiReduction .maximumf [1] S256 (bScores q k) 0xFF800000#32 reduces_S256x2048_S256 (.inl rfl) rfl)

theorem bMax_apply (r : Fin 256) : bMax q k (ix1 r) = tMax q k r := by
  unfold bMax tMax
  show max _ _ = _
  refine congrArg₂ max rfl ?_
  refine (Ideal.multiReduction_maximumf_single (bScores q k) _ reduces_S256x2048_S256 (.inl rfl) rfl (ix1 r)).trans ?_
  refine Finset.fold_congr fun l _ => ?_
  show bScores q k _ = _
  refine (congrArg (bScores q k) (funext fun a => Fin.ext (by match a with | ⟨0, _⟩ => rfl | ⟨1, _⟩ => rfl))).trans (bScores_apply q k r l)

/-- The shifted exponentials, as the body computes them: the row maximum laid as a column across the key axis. -/
def bEx : FVec Ideal S256x2048 .f32 :=
  exp (subf (bScores q k) (broadcastTo S256x2048 (shapeCast S256x1 (bMax q k) shapeCasts_S256_S256x1) broadcasts_S256x1_S256x2048))

theorem bEx_apply (r : Fin 256) (l : Fin 2048) : bEx q k (ix2 r l) = tEx q k r l := by
  unfold bEx tEx
  show Ideal.exp (bScores q k (ix2 r l) - broadcastTo S256x2048 (shapeCast S256x1 (bMax q k) shapeCasts_S256_S256x1) broadcasts_S256x1_S256x2048 (ix2 r l)) = _
  rw [Cert.LibKeepdims.broadcastTo_column, Cert.LibKeepdims.shapeCast_column, bScores_apply, bMax_apply]

/-- The softmax of each query row along the key axis, as the body computes it: the exponentials over their lane sum. -/
def bAttn : FVec Ideal S256x2048 .f32 :=
  divf (bEx q k) (broadcastTo S256x2048 (shapeCast S256x1
    (multiReduction .add [1] S256 (bEx q k) 0x00000000#32 reduces_S256x2048_S256 (.inl rfl) rfl) shapeCasts_S256_S256x1) broadcasts_S256x1_S256x2048)

theorem bAttn_apply (r : Fin 256) (l : Fin 2048) : bAttn q k (ix2 r l) = tAttn q k r l := by
  unfold bAttn tAttn tSum
  show Ideal.div (bEx q k (ix2 r l)) (broadcastTo S256x2048 (shapeCast S256x1 _ shapeCasts_S256_S256x1) broadcasts_S256x1_S256x2048 (ix2 r l)) = _
  rw [Cert.LibKeepdims.broadcastTo_column, Cert.LibKeepdims.shapeCast_column, bEx_apply]
  refine congrArg (Ideal.div _) ?_
  refine (Cert.LibKeepdims.rowSum (bEx q k) reduces_S256x2048_S256 (.inl rfl) rfl r).trans ?_
  exact Finset.sum_congr rfl fun l' _ => bEx_apply q k r l'

/-- The body's one update of the output block, as one term of the tile's three input blocks and the block's contents. -/
theorem pay2_eq (acc : Vec Ideal S1x2048x1024 .f32) :
    k1_pay2 q k xv acc = shapeCast S1x2048x1024
      (addf (shapeCast S2048x1024 acc shapeCasts_S1x2048x1024_S2048x1024 : FVec Ideal S2048x1024 .f32)
        (matmul dot_S256x2048_S256x1024_S2048x1024_0_0_1_1_n_n none
          (truncf .bf16 (bAttn q k) bitsLt_bf16_f32 : FVec Ideal S256x2048 .bf16)
          (shapeCast S256x1024 xv shapeCasts_S1x256x1024_S256x1024 : FVec Ideal S256x1024 .bf16)
          (constant S2048x1024 .f32 0x00000000#32))) shapeCasts_S2048x1024_S1x2048x1024 := rfl

/-- Read at an entry, the update adds the tile's contribution to what the block held. -/
theorem pay2_apply (acc : Vec Ideal S1x2048x1024 .f32) (l : Fin 2048) (cc : Fin 1024) :
    k1_pay2 q k xv acc (ix3 0 l cc) = acc (ix3 0 l cc) + tContrib q k xv l cc := by
  rw [pay2_eq, shapeCast_ab_1ab_apply]
  show shapeCast S2048x1024 acc shapeCasts_S1x2048x1024_S2048x1024 (ix2 l cc) + _ = _
  rw [shapeCast_1ab_ab_apply]
  refine congrArg (acc (ix3 0 l cc) + ·) ?_
  refine (Cert.ColDot.matmul_colDot_apply dot_S256x2048_S256x1024_S2048x1024_0_0_1_1_n_n_wf none _ _ l cc).trans ?_
  unfold tContrib
  refine Finset.sum_congr rfl fun r _ => ?_
  rw [shapeCast_1ab_ab_apply]
  show bAttn q k (ix2 r l) * _ = _
  rw [bAttn_apply]

end Tile

end Cert.KernelIdeal.AttnTile

end
-- ==== Proof.AttnOut.lean ====
/-
  The second kernel region as a whole: for each batch, eight tiles of 256 query positions. A tile computes its
  scores against all 2048 key positions, takes the softmax along the key position (each query position normalised by
  its own sum), and adds the tile's contribution `Σ_{m in tile} attn(l,m) · X(m,c)` into the batch's output block,
  which is reset to zero at the batch's first tile and written back after its last. So after a batch's eight tiles the
  block holds `Σ_j Σ_{r<256} attn(l, 256 j + r) · X(256 j + r, c)`, the sum over all 2048 query positions regrouped
  by tile; read at an entry, the output array is `Σ_m attn(n,l,m) · X(n,m,c)`.
-/
import proofs.«106263_j64072322121728_1_alg».proof.Proof.Spec
import proofs.«106263_j64072322121728_1_alg».proof.Proof.AttnTile
import proofs.«106263_j64072322121728_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.AttnOut

open Cert.KernelIdeal Cert.KernelIdeal.Gen Cert.AttnSpec Cert.KernelIdeal.AttnTile

variable (V : (c : Dev nD) → (b : Ref sig .tc) → Buf (Elt Ideal) ((c : Thread nD τ).loc b)) (c : Dev nD)

/-- The three arrays the region reads, as it finds them: the keys, the queries, the value rows. -/
abbrev Karr : SX.Idx → EReal := V c main_v3_0
abbrev Qarr : SX.Idx → EReal := V c main_v3_1
abbrev Xarr : SX.Idx → EReal := V c main_v2

/-- A point's three input blocks, at their literal types: the tile's query rows, the batch's key rows, the tile's value rows. -/
abbrev qB (t : Fin cfg1.N) : Vec Ideal S1x256x1024 .bf16 := iblk1 V c 0 t
abbrev kB (t : Fin cfg1.N) : Vec Ideal S1x2048x1024 .bf16 := iblk1 V c 1 t
abbrev xB (t : Fin cfg1.N) : Vec Ideal S1x256x1024 .bf16 := iblk1 V c 2 t

/-- Point `t` is tile `t % 8` of batch `t / 8`: the windows' block indices, decided over the grid. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0
    ∧ win1_3.index t (0 : Fin 3) = t.val / 8 ∧ win1_3.index t (1 : Fin 3) = 0 ∧ win1_3.index t (2 : Fin 3) = 0 :=
  (by decide +kernel : ∀ t : Fin grid1.N, _)

section Blocks
variable (t : Fin cfg1.N) (n : Fin 16) (j : Fin 8) (hn : n.val = t.val / 8) (hj : j.val = t.val % 8)
include hn hj

/-- The tile's query row `r` is query position `256 j + r` of batch `n`. -/
theorem qB_apply (r : Fin 256) (a : Fin 1024) : qB V c t (ix3 0 r a) = Qarr V c (ix3 n (tilePos j r) a) := by
  obtain ⟨e0, e1, e2, -⟩ := idx_facts t
  show V c main_v3_1 (((cfg1.win 0).blk t).view.emb (ix3 0 r a)) = V c main_v3_1 (ix3 n (tilePos j r) a)
  refine congrArg (V c main_v3_1) (funext fun ax => Fin.ext ?_)
  match ax with
  | ⟨0, _⟩ => show win1_0.index t (0 : Fin 3) * 1 + 1 * 0 = n.val; omega
  | ⟨1, _⟩ => show win1_0.index t (1 : Fin 3) * 256 + 1 * r.val = 256 * j.val + r.val; omega
  | ⟨2, _⟩ => show win1_0.index t (2 : Fin 3) * 1024 + 1 * a.val = a.val; omega

/-- The batch's key row `l`. -/
theorem kB_apply (l : Fin 2048) (a : Fin 1024) : kB V c t (ix3 0 l a) = Karr V c (ix3 n l a) := by
  obtain ⟨-, -, -, e0, e1, e2, -⟩ := idx_facts t
  show V c main_v3_0 (((cfg1.win 1).blk t).view.emb (ix3 0 l a)) = V c main_v3_0 (ix3 n l a)
  refine congrArg (V c main_v3_0) (funext fun ax => Fin.ext ?_)
  match ax with
  | ⟨0, _⟩ => show win1_1.index t (0 : Fin 3) * 1 + 1 * 0 = n.val; omega
  | ⟨1, _⟩ => show win1_1.index t (1 : Fin 3) * 2048 + 1 * l.val = l.val; omega
  | ⟨2, _⟩ => show win1_1.index t (2 : Fin 3) * 1024 + 1 * a.val = a.val; omega

/-- The tile's value row `r` is position `256 j + r` of batch `n`. -/
theorem xB_apply (r : Fin 256) (cc : Fin 1024) : xB V c t (ix3 0 r cc) = Xarr V c (ix3 n (tilePos j r) cc) := by
  obtain ⟨-, -, -, -, -, -, e0, e1, e2, -⟩ := idx_facts t
  show V c main_v2 (((cfg1.win 2).blk t).view.emb (ix3 0 r cc)) = V c main_v2 (ix3 n (tilePos j r) cc)
  refine congrArg (V c main_v2) (funext fun ax => Fin.ext ?_)
  match ax with
  | ⟨0, _⟩ => show win1_2.index t (0 : Fin 3) * 1 + 1 * 0 = n.val; omega
  | ⟨1, _⟩ => show win1_2.index t (1 : Fin 3) * 256 + 1 * r.val = 256 * j.val + r.val; omega
  | ⟨2, _⟩ => show win1_2.index t (2 : Fin 3) * 1024 + 1 * cc.val = cc.val; omega

/-- The tile's scores, maxima, exponentials, sums and softmax are the batch's, at the tile's query positions. -/
theorem tScore_eq (r : Fin 256) (l : Fin 2048) :
    tScore (qB V c t) (kB V c t) r l = score (Karr V c) (Qarr V c) n l (tilePos j r) := by
  unfold tScore score
  exact Finset.sum_congr rfl fun a _ => by rw [kB_apply V c t n j hn hj, qB_apply V c t n j hn hj]

theorem tMax_eq (r : Fin 256) : tMax (qB V c t) (kB V c t) r = colMax (Karr V c) (Qarr V c) n (tilePos j r) := by
  unfold tMax colMax
  exact congrArg (max negInf) (Finset.fold_congr fun l _ => tScore_eq V c t n j hn hj r l)

theorem tEx_eq (r : Fin 256) (l : Fin 2048) :
    tEx (qB V c t) (kB V c t) r l = ex (Karr V c) (Qarr V c) n l (tilePos j r) := by
  unfold tEx ex
  rw [tScore_eq V c t n j hn hj, tMax_eq V c t n j hn hj]

theorem tSum_eq (r : Fin 256) : tSum (qB V c t) (kB V c t) r = colSum (Karr V c) (Qarr V c) n (tilePos j r) := by
  unfold tSum colSum
  exact Finset.sum_congr rfl fun l _ => tEx_eq V c t n j hn hj r l

theorem tAttn_eq (r : Fin 256) (l : Fin 2048) :
    tAttn (qB V c t) (kB V c t) r l = attn (Karr V c) (Qarr V c) n l (tilePos j r) := by
  unfold tAttn attn
  rw [tEx_eq V c t n j hn hj, tSum_eq V c t n j hn hj]

/-- The tile's contribution to entry (l, c) of its batch's block: its 256 terms of the batch's sum over the query positions. -/
theorem tContrib_eq (l : Fin 2048) (cc : Fin 1024) :
    tContrib (qB V c t) (kB V c t) (xB V c t) l cc
      = ∑ r : Fin 256, attn (Karr V c) (Qarr V c) n l (tilePos j r) * Xarr V c (ix3 n (tilePos j r) cc) := by
  unfold tContrib
  exact Finset.sum_congr rfl fun r _ => by rw [tAttn_eq V c t n j hn hj, xB_apply V c t n j hn hj]

end Blocks

/-! ## The accumulation over a batch's eight tiles -/

/-- Point `n`'s addend to its batch's block (zero past the grid, where it is never used). -/
def addend (n : ℕ) (i : S1x2048x1024.Idx) : EReal :=
  if h : n < cfg1.N then tContrib (qB V c ⟨n, h⟩) (kB V c ⟨n, h⟩) (xB V c ⟨n, h⟩) (i 1) (i 2) else 0

/-- What a batch's first tile leaves: the update over the zero block. -/
def resetAt (n : ℕ) (h : n < cfg1.N) : Vec Ideal S1x2048x1024 .f32 :=
  k1_pay2 (qB V c ⟨n, h⟩) (kB V c ⟨n, h⟩) (xB V c ⟨n, h⟩) (k1_pay1 (F := Ideal))

/-- What a later tile leaves over the running contents. -/
def stepAt (n : ℕ) (h : n < cfg1.N) (acc : Vec Ideal S1x2048x1024 .f32) : Vec Ideal S1x2048x1024 .f32 :=
  k1_pay2 (qB V c ⟨n, h⟩) (kB V c ⟨n, h⟩) (xB V c ⟨n, h⟩) acc

theorem outsAt_reset (n : ℕ) (h : n < cfg1.N) (h0 : n % 8 = 0) : outsAt1 V c n h = resetAt V c n h :=
  (outsAt1_A V c ⟨n, h⟩ h0).trans (piece_first ..)

theorem outsAt_step (n : ℕ) (h : n + 1 < cfg1.N) (h0 : ¬(n + 1) % 8 = 0) :
    outsAt1 V c (n + 1) h = stepAt V c (n + 1) h (outsAt1 V c n (Nat.lt_of_succ_lt h)) :=
  (outsAt1_B V c ⟨n + 1, h⟩ h0).trans (piece_later ..)

/-- The zero block reads zero. -/
theorem zero_apply (i : S1x2048x1024.Idx) : k1_pay1 (F := Ideal) i = 0 := by
  show Ideal.ofBits .f32 0x00000000#32 = 0
  exact Ideal.ofBits_zero_f32

theorem stepAt_apply (n : ℕ) (h : n < cfg1.N) (acc : Vec Ideal S1x2048x1024 .f32) (i : S1x2048x1024.Idx) :
    stepAt V c n h acc i = acc i + addend V c n i := by
  obtain ⟨u, l, cc, rfl⟩ : ∃ u l cc, i = ix3 u l cc := ⟨i 0, i 1, i 2, eq_ix3 i⟩
  obtain rfl : u = 0 := Subsingleton.elim _ _
  unfold stepAt addend
  rw [pay2_apply, dif_pos h]

theorem resetAt_apply (n : ℕ) (h : n < cfg1.N) (i : S1x2048x1024.Idx) :
    resetAt V c n h i = 0 + addend V c n i := by
  have := stepAt_apply V c n h (k1_pay1 (F := Ideal)) i
  rw [zero_apply] at this
  exact this

/-- After a batch's last tile the block holds the sum of the batch's eight addends. -/
theorem outsAt_last (t : Fin cfg1.N) (h7 : t.val % 8 = 7) (i : S1x2048x1024.Idx) :
    outsAt1 V c t.val t.isLt i = ∑ s ∈ Finset.range 8, addend V c (8 * (t.val / 8) + s) i := by
  have h' : 8 * (t.val / 8) + t.val % 8 < cfg1.N := by rw [Nat.div_add_mod]; exact t.isLt
  rw [Pipeline.eq_accAt_of_mod (outsAt1 V c) 8 (resetAt V c) (stepAt V c) (outsAt_reset V c) (outsAt_step V c)
    (by decide) t.val t.isLt h']
  have key := Pipeline.accAt_add_apply (ι := S1x2048x1024.Idx) (β := EReal) (resetAt V c) (stepAt V c) (fun _ => 0) (addend V c)
    (8 * (t.val / 8)) 7 (fun h i => resetAt_apply V c _ h i) (fun n h acc i _ _ => stepAt_apply V c n h acc i)
    (t.val % 8) (by omega) h' i
  rw [key, h7, zero_add]

/-- A batch's addend at an entry: the tile's 256 terms of the batch's sum over the query positions. -/
theorem addend_eq (n : Fin 16) (j : Fin 8) (l : Fin 2048) (cc : Fin 1024) :
    addend V c (8 * n.val + j.val) (ix3 0 l cc)
      = ∑ r : Fin 256, attn (Karr V c) (Qarr V c) n l (tilePos j r) * Xarr V c (ix3 n (tilePos j r) cc) := by
  have hN : cfg1.N = 128 := N_1
  have hlt : 8 * n.val + j.val < cfg1.N := by have := n.isLt; have := j.isLt; omega
  unfold addend
  rw [dif_pos hlt]
  exact tContrib_eq V c ⟨8 * n.val + j.val, hlt⟩ n j (by show n.val = (8 * n.val + j.val) / 8; have := j.isLt; omega)
    (by show j.val = (8 * n.val + j.val) % 8; have := j.isLt; omega) l cc

/-! ## From the blocks to the array -/

/-- What a batch's last point writes back is the batch's block of the re-weighted rows. -/
theorem flushed_eq (t : Fin cfg1.N) (hf : (cfg1.win 3).flush t = true) :
    (dat1 V c).flushed 3 t
      = ((cfg1.win 3).blk t).view.read (Elt Ideal) (outArr (Karr V c) (Qarr V c) (Xarr V c)) := by
  have h7 : t.val % 8 = 7 := (flush1_3 t).mp hf
  have hN : t.val < 128 := lt_of_lt_of_eq t.isLt N_1
  obtain ⟨-, -, -, -, -, -, -, -, -, e0, e1, e2⟩ := idx_facts t
  show (cfg1.win 3).cut (grid1.coords t) ((dat1 V c).after 3 t) = _
  rw [after1_3]
  funext y
  obtain ⟨u, l, cc, rfl⟩ : ∃ u l cc, y = ix3 u l cc := ⟨y 0, y 1, y 2, eq_ix3 y⟩
  obtain rfl : u = 0 := Subsingleton.elim _ _
  have hemb : ((cfg1.win 3).blk t).view.emb (ix3 0 l cc) = (ix3 (⟨t.val / 8, by omega⟩ : Fin 16) l cc : SX.Idx) :=
    funext fun ax => Fin.ext (by
      match ax with
      | ⟨0, _⟩ => show win1_3.index t (0 : Fin 3) * 1 + 1 * 0 = t.val / 8; omega
      | ⟨1, _⟩ => show win1_3.index t (1 : Fin 3) * 2048 + 1 * l.val = l.val; omega
      | ⟨2, _⟩ => show win1_3.index t (2 : Fin 3) * 1024 + 1 * cc.val = cc.val; omega)
  show outsAt1 V c t.val t.isLt (ix3 0 l cc)
    = outArr (Karr V c) (Qarr V c) (Xarr V c) (((cfg1.win 3).blk t).view.emb (ix3 0 l cc))
  rw [hemb, outsAt_last V c t h7]
  show _ = out (Karr V c) (Qarr V c) (Xarr V c) (⟨t.val / 8, by omega⟩ : Fin 16) l cc
  unfold out
  rw [sum_tiles, Finset.sum_range]
  exact Finset.sum_congr rfl fun j _ => addend_eq V c (⟨t.val / 8, by omega⟩ : Fin 16) j l cc

/-- An index of the array is in point `t`'s block iff each coordinate is in the block's range on its axis. -/
theorem mem_blk (t : Fin cfg1.N) (i : S16x2048x1024.Idx) :
    i ∈ ((cfg1.win 3).blk t).view.set ↔ ∀ a : Fin 3, win1_3.index t a * S1x2048x1024.size a ≤ (i a).val
      ∧ (i a).val < win1_3.index t a * S1x2048x1024.size a + S1x2048x1024.size a := by
  show i ∈ ((View.whole main_v4).slice (win1_3.rect t)).set ↔ _
  rw [View.set_slice_whole, Rect.mem_set_unit]
  exact Iff.rfl

/-- Every entry of the array lies in the block its batch's last point writes back. -/
theorem cover (i : S16x2048x1024.Idx) :
    ∃ t : Fin cfg1.N, (cfg1.win 3).flush t = true ∧ i ∈ ((cfg1.win 3).blk t).view.set := by
  have h0 : (i 0).val < 16 := (i 0).isLt
  have h1 : (i 1).val < 2048 := (i 1).isLt
  have h2 : (i 2).val < 1024 := (i 2).isLt
  have hN : grid1.N = 128 := N_1
  obtain ⟨t, ht⟩ : ∃ t : Fin cfg1.N, t.val = 8 * (i 0).val + 7 :=
    ⟨⟨8 * (i 0).val + 7, by show _ < grid1.N; omega⟩, rfl⟩
  refine ⟨t, (flush1_3 t).mpr (by omega), ?_⟩
  rw [mem_blk]
  obtain ⟨-, -, -, -, -, -, -, -, -, e0, e1, e2⟩ := idx_facts t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 2048 ≤ (i 1).val ∧ (i 1).val < win1_3.index t (1 : Fin 3) * 2048 + 2048; omega
  | ⟨2, _⟩ => show win1_3.index t (2 : Fin 3) * 1024 ≤ (i 2).val ∧ (i 2).val < win1_3.index t (2 : Fin 3) * 1024 + 1024; omega

/-- After the region the output array (the region's output window 3) holds the re-weighted rows of the keys
    (window 1's array), the queries (window 0's array) and the value rows (window 2's array) as the region found them. -/
theorem out_arr :
    ((dat1 (F := Ideal) V c).arrAt 3 cfg1.N : SX.Idx → EReal) = outArr (V c main_v3_0) (V c main_v3_1) (V c main_v2) :=
  (dat1 V c).arrAt_eq_of_cover 3 (outArr (Karr V c) (Qarr V c) (Xarr V c)) (fun t hf => flushed_eq V c t hf) (cover)

end Cert.KernelIdeal.AttnOut

end
-- ==== Proof.KernelValue.lean ====
/-
  The idealized kernel program as a whole, read at an entry. Before the first region the host narrows the two weight
  arrays and `x` to a shorter float format, which on the extended reals changes nothing. The first region writes the
  key and query projections; the second reads them, and the narrowed `x`, and writes the re-weighted rows. Chaining
  the contents at the three segment boundaries, the result array is the specification's function of the three inputs.
-/
import proofs.«106263_j64072322121728_1_alg».proof.Proof.Spec
import proofs.«106263_j64072322121728_1_alg».proof.Proof.KernelRun
import proofs.«106263_j64072322121728_1_alg».proof.Proof.KeyQuery
import proofs.«106263_j64072322121728_1_alg».proof.Proof.AttnOut
import Idealize.ShloMosaic.Lib.StableHlo.Run

set_option maxRecDepth 16384

noncomputable section

open Idealize.ShloMosaic Idealize.ShloMosaic.TcCoe Idealize.ShloMosaic.ValueIdx Idealize.SL.Sem Idealize.ShloMosaic.StableHlo

namespace Cert.KernelIdeal.Whole

open Cert.KernelIdeal Cert.KernelIdeal.Gen Cert.AttnSpec

variable (m : (ℓ : Loc nD τ sig) → Buf (Elt Ideal) ℓ) (ρ : Dev nD → PrngReg) (c : Dev nD)

/-! ## At the first region's entry: the narrowed copies are the arguments -/

theorem entry_keyWeights : (V1 m ρ c main_v0 : SW.Idx → EReal) = m ((c : Thread nD τ).loc main_arg2) := by
  show StableHlo.after hostOps0 (W0 m ρ c) (Proc.devRef .tc main_v0) = _
  after_results
  rfl

theorem entry_queryWeights : (V1 m ρ c main_v1 : SW.Idx → EReal) = m ((c : Thread nD τ).loc main_arg1) := by
  show StableHlo.after hostOps0 (W0 m ρ c) (Proc.devRef .tc main_v1) = _
  after_results
  rfl

theorem entry_values : (V1 m ρ c main_v2 : SX.Idx → EReal) = m ((c : Thread nD τ).loc main_arg0) := by
  show StableHlo.after hostOps0 (W0 m ρ c) (Proc.devRef .tc main_v2) = _
  after_results
  rfl

theorem entry_x : (V1 m ρ c main_arg0 : SX.Idx → EReal) = m ((c : Thread nD τ).loc main_arg0) := by
  show StableHlo.after hostOps0 (W0 m ρ c) (Proc.devRef .tc main_arg0) = _
  after_results

/-! ## At the second region's entry: the projections, and the value rows untouched -/

theorem mid_keys : (V2 m ρ c main_v3_0 : SX.Idx → EReal)
    = projArr (m ((c : Thread nD τ).loc main_arg0)) (m ((c : Thread nD τ).loc main_arg2)) := by
  refine (W2_arr m ρ c 3).trans ?_
  rw [Cert.KernelIdeal.KeyQuery.key_arr (V1 m ρ) c, entry_x, entry_keyWeights]

theorem mid_queries : (V2 m ρ c main_v3_1 : SX.Idx → EReal)
    = projArr (m ((c : Thread nD τ).loc main_arg0)) (m ((c : Thread nD τ).loc main_arg1)) := by
  refine (W2_arr m ρ c 4).trans ?_
  rw [Cert.KernelIdeal.KeyQuery.query_arr (V1 m ρ) c, entry_x, entry_queryWeights]

theorem mid_values : (V2 m ρ c main_v2 : SX.Idx → EReal) = m ((c : Thread nD τ).loc main_arg0) :=
  (W2_of_ne m ρ c main_v2 (by decide)).trans (entry_values m ρ c)

/-! ## At the return -/

/-- The result array after the run is the specification's function of the three inputs. -/
theorem result_eq : (W3 m ρ c (Proc.devRef .tc main_v4) : SX.Idx → EReal)
    = G (m ((c : Thread nD τ).loc main_arg0)) (m ((c : Thread nD τ).loc main_arg1)) (m ((c : Thread nD τ).loc main_arg2)) := by
  refine (W3_arr m ρ c 3).trans ?_
  rw [Cert.KernelIdeal.AttnOut.out_arr (V2 m ρ) c, mid_keys, mid_queries, mid_values]
  rfl

/-- The run, read: the result at the specification's function of the arguments, the arguments as launched. -/
theorem run : θ_run defs (onTc (τ := τ) (main (F := Ideal))) ⟨m, fun _ => 0, ρ⟩ (fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelIdeal.Run.run_named m ρ)

end Cert.KernelIdeal.Whole

end
-- ==== Proof.lean ====
/-
  The certificate of a self-attention kernel against its jnp reference, over the extended reals.

  Both programs compute, for each batch n, key rows key(l) = x(l) · Wkᵀ and query rows query(m) = x(m) · Wqᵀ, the scores
  score(l, m) = key(l) · query(m), a softmax ALONG THE KEY POSITION l for each fixed query position m,
  attn(l, m) = exp(score(l,m) - max_l' score(l',m)) / Σ_l' exp(score(l',m) - max_l'' score(l'',m)), and the
  re-weighted rows out(l, c) = Σ_m attn(l, m) · x(m, c).

  The reference does this with whole-array operations. The kernel does it in two regions: the first writes the key
  and the query projections block by block; the second walks each batch's query positions in eight tiles of 256,
  forms the transposed scores query(m) · key(l) (the same numbers: the product of extended reals commutes), takes the
  ordinary last-axis softmax of that transposed view (the same reduction over l), and accumulates the tile's part
  Σ_{m in tile} attn(l, m) · x(m, c) into the batch's output block from zero. The sum over m regrouped by tile is the
  same sum (a finite sum in a commutative monoid), and the changes of float format the kernel makes on the way are the
  identity on the extended reals: so no finiteness of the inputs is used anywhere.

  Modules: Spec (the mathematics, no program), RefValue (the reference is it), KeyQuery (the first region),
  AttnTile and AttnOut (the second region: one tile's arithmetic, then the accumulation and the blocks of the array),
  KernelRun (the run with the result named), KernelValue (the three segment boundaries chained).
  The two kernels' frames are the generated frame certificates; the reference's frame is its generated run.
-/
import proofs.«106263_j64072322121728_1_alg».proof.Defs
import proofs.«106263_j64072322121728_1_alg».proof.Proof.Gen.Kernel
import proofs.«106263_j64072322121728_1_alg».proof.Proof.Gen.Kernel.Skeleton
import proofs.«106263_j64072322121728_1_alg».proof.Proof.Gen.Kernel.Launch
import proofs.«106263_j64072322121728_1_alg».proof.Proof.Gen.Kernel.Points
import proofs.«106263_j64072322121728_1_alg».proof.Proof.Gen.Kernel.Frame
import proofs.«106263_j64072322121728_1_alg».proof.Proof.Gen.KernelIdeal
import proofs.«106263_j64072322121728_1_alg».proof.Proof.Gen.KernelIdeal.Skeleton
import proofs.«106263_j64072322121728_1_alg».proof.Proof.Gen.KernelIdeal.Launch
import proofs.«106263_j64072322121728_1_alg».proof.Proof.Gen.KernelIdeal.Points
import proofs.«106263_j64072322121728_1_alg».proof.Proof.Gen.KernelIdeal.Frame
import proofs.«106263_j64072322121728_1_alg».proof.Proof.Gen.ReferenceIdeal
import proofs.«106263_j64072322121728_1_alg».proof.Proof.Gen.ReferenceIdeal.Run
import proofs.«106263_j64072322121728_1_alg».proof.Proof.Gen.ReferenceIdeal.Read
import proofs.«106263_j64072322121728_1_alg».proof.Proof.Gen.Pre_finite_inputs
import proofs.«106263_j64072322121728_1_alg».proof.Proof.RefValue
import proofs.«106263_j64072322121728_1_alg».proof.Proof.KernelValue
import Idealize.ShloMosaic.Adequacy
import Idealize.ShloMosaic.Init

noncomputable section

namespace Cert.Proof

open Idealize.ShloMosaic Idealize.SL.Sem

/-- The word-level kernel runs and leaves its arguments as launched: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three inputs, both programs end with the result at the specification's function of
    the inputs: the kernel by its two regions chained, the reference by its operations read one at a time. -/
theorem algebraic : Cert.algebraic_KernelIdeal_ReferenceIdeal := by
  intro m ρ m' ρ' _ hagree
  refine ⟨fun c => Cert.AttnSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
